-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S601x27 : Shape := ⟨2, ![601, 27]⟩
abbrev S_ : Shape := ⟨0, ![]⟩

class Facts : Prop where
  bcast_S_S601x27 : S_.BroadcastsInDim S601x27 (![] : Fin 0 → Fin S601x27.rank)
  reducesTo_S601x27_S_d0_1 : S601x27.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : IVec S4194304 32) (main_arg1 : FVec F S601x27 .f32) : IVec S_ 1 :=
  let main_v0 : FVec F S601x27 .f32 := Host.absf main_arg1
  let main_cst : FVec F S_ .f32 := constant S_ .f32 0x7F800000#32
  let main_v1 : FVec F S601x27 .f32 := broadcastInDim S601x27 ![] bcast_S_S601x27 main_cst
  let main_v2 : IVec S601x27 1 := cmpf .olt main_v0 main_v1
  let main_c : IVec S_ 1 := constantI S_ 1 1#1
  let main_v3 : IVec S_ 1 := (fun x v => Host.reduce IntOp.andi x v reducesTo_S601x27_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg0 main_v4
  let main_c_1 : IVec S_ 1 := constantI S_ 1 1#1
  let main_v6 : IVec S_ 1 := (fun x v => Host.reduce IntOp.andi x v reducesTo_S4194304_S_d0 h_S_) main_v5 main_c_1
  let main_v7 : IVec S_ 1 := andi main_v3 main_v6
  let main_c_2 : IVec S_ 32 := constantI S_ 32 601#32
  let main_v8 : IVec S4194304 32 := broadcastInDim S4194304 ![] bcast_S_S4194304 main_c_2
  let main_v9 : IVec S4194304 1 := cmpi .slt main_arg0 main_v8
  let main_c_3 : IVec S_ 1 := constantI S_ 1 1#1
  let main_v10 : IVec S_ 1 := (fun x v => Host.reduce IntOp.andi x v reducesTo_S4194304_S_d0 h_S_) main_v9 main_c_3
  let main_v11 : IVec S_ 1 := andi main_v7 main_v10
  main_v11
-- ==== Kernel.lean ====
abbrev S4194304 : Shape := ⟨1, ![4194304]⟩
abbrev S601x27 : Shape := ⟨2, ![601, 27]⟩
abbrev S_ : Shape := ⟨0, ![]⟩
abbrev S601 : Shape := ⟨1, ![601]⟩
abbrev S601x1 : Shape := ⟨2, ![601, 1]⟩
abbrev S27x601 : Shape := ⟨2, ![27, 601]⟩
abbrev S32x640 : Shape := ⟨2, ![32, 640]⟩
abbrev S4194304x27 : Shape := ⟨2, ![4194304, 27]⟩
abbrev S16384 : Shape := ⟨1, ![16384]⟩
abbrev S16384x27 : Shape := ⟨2, ![16384, 27]⟩
abbrev S4096 : Shape := ⟨1, ![4096]⟩
abbrev S640x1 : Shape := ⟨2, ![640, 1]⟩
abbrev S1x4096 : Shape := ⟨2, ![1, 4096]⟩
abbrev S640x4096 : Shape := ⟨2, ![640, 4096]⟩
abbrev S32x4096 : Shape := ⟨2, ![32, 4096]⟩
abbrev S4096x32 : Shape := ⟨2, ![4096, 32]⟩
abbrev S4096x27 : Shape := ⟨2, ![4096, 27]⟩

abbrev nBuf : Space → Nat
  | .hbm => 17
  | .vmem => 6
  | .smem => 0
  | _ => 0

abbrev bufTy : (tb : Table) → Fin (tcTables nBuf tb) → BufTy
  | .hbm, ⟨0, _⟩ => ⟨S4194304, .i32⟩
  | .hbm, ⟨1, _⟩ => ⟨S601x27, .f32⟩
  | .hbm, ⟨2, _⟩ => ⟨S601x27, .f32⟩
  | .hbm, ⟨3, _⟩ => ⟨S_, .f32⟩
  | .hbm, ⟨4, _⟩ => ⟨S601, .f32⟩
  | .hbm, ⟨5, _⟩ => ⟨S601x1, .f32⟩
  | .hbm, ⟨6, _⟩ => ⟨S601x27, .f32⟩
  | .hbm, ⟨7, _⟩ => ⟨S601x27, .f32⟩
  | .hbm, ⟨8, _⟩ => ⟨S27x601, .f32⟩
  | .hbm, ⟨9, _⟩ => ⟨S_, .i32⟩
  | .hbm, ⟨10, _⟩ => ⟨S_, .f32⟩
  | .hbm, ⟨11, _⟩ => ⟨S32x640, .f32⟩
  | .hbm, ⟨12, _⟩ => ⟨S32x640, .bf16⟩
  | .hbm, ⟨13, _⟩ => ⟨S32x640, .f32⟩
  | .hbm, ⟨14, _⟩ => ⟨S32x640, .f32⟩
  | .hbm, ⟨15, _⟩ => ⟨S32x640, .bf16⟩
  | .hbm, ⟨16, _⟩ => ⟨S4194304x27, .f32⟩
  | .local _ .vmem, ⟨0, _⟩ => ⟨S16384, .i32⟩
  | .local _ .vmem, ⟨1, _⟩ => ⟨S16384, .i32⟩
  | .local _ .vmem, ⟨2, _⟩ => ⟨S32x640, .bf16⟩
  | .local _ .vmem, ⟨3, _⟩ => ⟨S32x640, .bf16⟩
  | .local _ .vmem, ⟨4, _⟩ => ⟨S16384x27, .f32⟩
  | .local _ .vmem, ⟨5, _⟩ => ⟨S16384x27, .f32⟩
  | _, _ => ⟨S4194304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![256], ![false]⟩

def k0_mult1 : BitVec 32 :=
  let c0_i32 : BitVec 32 := 0#32
  let c4096_i32 : BitVec 32 := 4096#32
  let v4 : BitVec 32 := Scalar.muli c0_i32 c4096_i32
  v4
def k0_off1 (c0_i32 : BitVec 32) : Fin 1 → Nat :=
  let c4096_i32 : BitVec 32 := 4096#32
  let v4 : BitVec 32 := Scalar.muli c0_i32 c4096_i32
  let v5 : BitVec 32 := v4
  let v6 : Index := Scalar.indexCast v5
  ![v6.toNat]
def k0_off2 (c0_i32 : BitVec 32) : Fin 2 → Nat :=
  let c4096_i32 : BitVec 32 := 4096#32
  let v4 : BitVec 32 := Scalar.muli c0_i32 c4096_i32
  let v5 : BitVec 32 := v4
  let v21 : Index := Scalar.indexCast v5
  let c0_4 : Index := 0#32
  ![v21.toNat, 0]
def k0_mult2 : BitVec 32 :=
  let c1_i32 : BitVec 32 := 1#32
  let c4096_i32_5 : BitVec 32 := 4096#32
  let v23 : BitVec 32 := Scalar.muli c1_i32 c4096_i32_5
  v23
def k0_mult3 : BitVec 32 :=
  let c2_i32 : BitVec 32 := 2#32
  let c4096_i32_9 : BitVec 32 := 4096#32
  let v42 : BitVec 32 := Scalar.muli c2_i32 c4096_i32_9
  v42
def k0_mult4 : BitVec 32 :=
  let c3_i32 : BitVec 32 := 3#32
  let c4096_i32_13 : BitVec 32 := 4096#32
  let v61 : BitVec 32 := Scalar.muli c3_i32 c4096_i32_13
  v61
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x27 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S601x27_S601_d1 : S601x27.ReducesTo [1] S601
  h_S_ : 0 < S_.numel
  bcast_S601_S601x1_0 : S601.BroadcastsInDim S601x1 (![0] : Fin 1 → Fin S601x1.rank)
  bcast_S601x1_S601x27_0_1 : S601x1.BroadcastsInDim S601x27 (![0, 1] : Fin 2 → Fin S601x27.rank)
  transposes_S601x27_S27x601_1_0 : S601x27.Transposes [1, 0] S27x601
  pads_S27x601_S32x640_050_0390 : S27x601.Pads (![0, 0] : Fin 2 → Nat) ![5, 39] ![0, 0] S32x640
  bitsLt_bf16_f32 : FTy.bits .bf16 < FTy.bits .f32
  inb_S32x640_S32x640_0_0 : ∀ a, (![0, 0] : Fin 2 → Nat) a + S32x640.size a ≤ S32x640.size a
  h_S32x640 : 0 < S32x640.numel
  shapeCasts_S32x640_S32x640 : S32x640.ShapeCasts S32x640
  h_S4096 : 0 < S4096.numel
  iota_S640x1_d0_w32 : S640x1.Iotas .tc 32 [0]
  shapeCasts_S4096_S1x4096 : S4096.ShapeCasts S1x4096
  broadcasts_S640x1_S640x4096 : S640x1.Broadcasts S640x4096
  broadcasts_S1x4096_S640x4096 : S1x4096.Broadcasts S640x4096
  natLt_1_32 : 1 < 32
  transposes_S32x4096_p1_0_S4096x32 : S32x4096.Transposes [1, 0] S4096x32
  slices_S4096x32_o0_0_S4096x27 : S4096x32.Slices ![0, 0] S4096x27
  h_S4096x27 : 0 < S4096x27.numel
  dot_S32x640_S640x4096_S32x4096_1_0_0_1_n_n_wf : DotDims.WF S32x640 S640x4096 S32x4096 [1] [0] [0] [1] [] []
  hrank0 : 0 < grid0.rank
  k0_mult1_dvd : 4096 ∣ k0_mult1.toNat
  k0_off1_inb : ∀ (r : Fin 4), ∀ a, (k0_off1 (BitVec.ofNat 32 r.val)) a + S4096.size a ≤ S16384.size a
  k0_off2_inb : ∀ (r : Fin 4), ∀ a, (k0_off2 (BitVec.ofNat 32 r.val)) a + S4096x27.size a ≤ S16384x27.size a
  k0_mult2_dvd : 4096 ∣ k0_mult2.toNat
  k0_mult3_dvd : 4096 ∣ k0_mult3.toNat
  k0_mult4_dvd : 4096 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S4194304.size a
  hwx0_0 : ∀ i : grid0.Coords, EltTy.bits .i32 = 32 ∨ (Rect.block (s := S4194304) S16384.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x640.size a ≤ S32x640.size a
  hwx0_1 : ∀ i : grid0.Coords, EltTy.bits .bf16 = 32 ∨ (Rect.block (s := S32x640) S32x640.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x640.size a ≤ S32x640.size a
  hwx0_2 : ∀ i : grid0.Coords, EltTy.bits .bf16 = 32 ∨ (Rect.block (s := S32x640) S32x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x27.size a ≤ S4194304x27.size a
  hwx0_3 : ∀ i : grid0.Coords, EltTy.bits .f32 = 32 ∨ (Rect.block (s := S4194304x27) S16384x27.size (cc0_transform_3 i) (hinb0_3 i)).WholeWords (EltTy.packing .f32)

variable [Facts₀]

def dot_S32x640_S640x4096_S32x4096_1_0_0_1_n_n : DotDims S32x640 S640x4096 S32x4096 where
  lhsContracting := [1]
  rhsContracting := [0]
  lhsNonContracting := [0]
  rhsNonContracting := [1]
  lhsBatch := []
  rhsBatch := []
  wf := dot_S32x640_S640x4096_S32x4096_1_0_0_1_n_n_wf

abbrev win0_0 : Pipeline.Window sig grid0 :=
  Pipeline.Window.ofSpec (Memref.whole main_arg0) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S32x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S32x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16384x27.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304 : Shape := ⟨1, ![4194304]⟩
abbrev S601x27 : Shape := ⟨2, ![601, 27]⟩
abbrev S_ : Shape := ⟨0, ![]⟩
abbrev S4194304x1 : Shape := ⟨2, ![4194304, 1]⟩
abbrev S4194304x27 : Shape := ⟨2, ![4194304, 27]⟩

abbrev nBuf : Space → Nat
  | .hbm => 17
  | .vmem => 0
  | .smem => 0
  | _ => 0

abbrev bufTy : (tb : Table) → Fin (tcTables nBuf tb) → BufTy
  | .hbm, ⟨0, _⟩ => ⟨S4194304, .i32⟩
  | .hbm, ⟨1, _⟩ => ⟨S601x27, .f32⟩
  | .hbm, ⟨2, _⟩ => ⟨S_, .i32⟩
  | .hbm, ⟨3, _⟩ => ⟨S4194304, .i32⟩
  | .hbm, ⟨4, _⟩ => ⟨S4194304, .i1⟩
  | .hbm, ⟨5, _⟩ => ⟨S_, .i32⟩
  | .hbm, ⟨6, _⟩ => ⟨S4194304, .i32⟩
  | .hbm, ⟨7, _⟩ => ⟨S4194304, .i32⟩
  | .hbm, ⟨8, _⟩ => ⟨S4194304, .i32⟩
  | .hbm, ⟨9, _⟩ => ⟨S4194304x1, .i32⟩
  | .hbm, ⟨10, _⟩ => ⟨S4194304x27, .f32⟩
  | .hbm, ⟨11, _⟩ => ⟨S4194304x27, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x27, .f32⟩
  | .hbm, ⟨16, _⟩ => ⟨S4194304x27, .f32⟩
  | _, _ => ⟨S4194304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304x27_S4194304_d1 : S4194304x27.ReducesTo [1] S4194304
  h_S_ : 0 < S_.numel
  bcast_S4194304x1_S4194304x27_0_1 : S4194304x1.BroadcastsInDim S4194304x27 (![0, 1] : Fin 2 → Fin S4194304x27.rank)
  gather_S601x27_S4194304x1_S4194304x27_1_0_n_n_0_1_127_wf : GatherDims.WF S601x27 S4194304x1 S4194304x27 [1] [0] [] [0] [] 1 ![1, 27]

variable [Facts₀]

def gather_S601x27_S4194304x1_S4194304x27_1_0_n_n_0_1_127 : GatherDims S601x27 S4194304x1 S4194304x27 where
  offsetDims := [1]
  collapsedSliceDims := [0]
  operandBatchingDims := []
  startIndicesBatchingDims := []
  startIndexMap := [0]
  indexVectorDim := 1
  sliceSizes := ![1, 27]
  wf := gather_S601x27_S4194304x1_S4194304x27_1_0_n_n_0_1_127_wf

class Facts : Prop extends Facts₀ where

variable [Facts]
-- ==== Proof.Domain.lean ====
/-
  What the precondition says of the two arguments.

  The precondition is the conjunction of three "for all" tests: every entry of `W` has absolute value below +∞;
  every index word is at least 0 as a signed integer; every index word is below 601 as a signed integer. Read back,
  entry by entry: every entry of `W` is a real number (on the extended reals |x| < +∞ excludes exactly ±∞), and
  every index word, read as a natural number, is below 601 — a word that is non-negative as a signed integer reads
  the same signed and unsigned.
-/
import proofs.«425511_j86114094285207_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Domain

open Cert.Pre_finite_inputs Idealize.ShloMosaic Idealize.ShloMosaic.ValueIdx

/-- The scalar shape has one index. -/
instance : Subsingleton S_.Idx := ⟨fun _ _ => funext fun d => d.elim0⟩

/-- An extended real whose absolute value is below +∞ is a real. -/
theorem real_of_abs_lt_top (x : EReal)
    (h : Ideal.cmp .olt (max x (-x)) (Ideal.ofBits .f32 0x7F800000#32) = 1#1) : ∃ w : ℝ, x = (w : EReal) := by
  have htop : Ideal.ofBits .f32 0x7F800000#32 = ⊤ := by simp [Ideal.ofBits, Ideal.ieee]
  rw [htop] at h
  induction x using EReal.rec with
  | bot => exact absurd h (by simp [Ideal.cmp])
  | coe w => exact ⟨w, rfl⟩
  | top => exact absurd h (by simp [Ideal.cmp])

/-- THE DOMAIN: under the precondition every entry of `W` is a real and every index word is below 601. -/
theorem domain (x : IVec S4194304 32) (W : FVec Ideal S601x27 .f32) (h : fn (F := Ideal) x W = fun _ => 1#1) :
    (∀ i, ∃ w : ℝ, W i = (w : EReal)) ∧ ∀ n, (x n).toNat < 601 := by
  have h0 := congrFun h ix0
  dsimp only [fn] at h0
  obtain ⟨h1, hlt⟩ := IntOp.andi_eq_one.mp h0
  obtain ⟨hfin, hge⟩ := IntOp.andi_eq_one.mp h1
  refine ⟨fun i => real_of_abs_lt_top (W i) (Host.reduce_andi_all _ _ _ _ _ hfin i), fun n => ?_⟩
  have hg : (0#32 : BitVec 32).toInt ≤ (x n).toInt := IntOp.cmpi_sge.mp (Host.reduce_andi_all _ _ _ _ _ hge n)
  have hl : (x n).toInt < (601#32 : BitVec 32).toInt := IntOp.cmpi_slt.mp (Host.reduce_andi_all _ _ _ _ _ hlt n)
  rw [show (0#32 : BitVec 32).toInt = 0 from by decide] at hg
  rw [show (601#32 : BitVec 32).toInt = 601 from by decide] at hl
  have hc := BitVec.toInt_eq_toNat_cond (x n)
  have := (x n).isLt
  split at hc <;> omega

end Cert.Pre_finite_inputs.Domain

end
-- ==== Proof.Softmax.lean ====
/-
  The mathematics shared by the two programs, with no program in sight.

  For a 601 × 27 table `W` of extended reals, `rowSoftmax W k r` is the softmax of row `k` at column `r`:
  e^{W k r} divided by the sum over the 27 columns `q` of e^{W k q}. One side computes it for every row of the
  table once and then selects a row by a contraction against an indicator column; the other side selects the
  row first and normalises afterwards. Both are this one function at the selected row.

  Two facts about it are used. When every entry of `W` is a real number, so is every softmax entry: the
  exponentials are positive reals, their sum is a positive real, and a real divided by a non-zero real is a
  real. That matters because the table is split as `T = T + (T - T)`, and `x - x = 0` holds on the extended
  reals exactly when `x` is finite. And a sum of products against an indicator column — one entry `1`, all
  others `0` — is the single term at the marked position, which needs no finiteness at all (`x * 0 = 0` for
  every extended real).
-/
import Idealize.ShloMosaic.PureOps.Ideal.Laws
import Idealize.ShloMosaic.Lib.ValueIdx

noncomputable section

open scoped BigOperators

namespace Cert.Bigram

open Idealize.ShloMosaic Idealize.ShloMosaic.ValueIdx

/-- The softmax of row `k` of `W` at column `r`, on the extended reals. -/
def rowSoftmax (W : (⟨2, ![601, 27]⟩ : Shape).Idx → EReal) (k : Fin 601) (r : Fin 27) : EReal :=
  Ideal.div (Ideal.exp (W (ix2 k r))) (∑ q : Fin 27, Ideal.exp (W (ix2 k q)))

/-- The class an index word names: its value as a natural number, capped at the last of the 601 classes. -/
def classOf (x : BitVec 32) : Fin 601 := ⟨min x.toNat 600, by omega⟩

/-- A word below 601 names the class of its own value. -/
theorem classOf_of_lt {x : BitVec 32} (h : x.toNat < 601) : classOf x = ⟨x.toNat, h⟩ :=
  Fin.ext (by show min x.toNat 600 = x.toNat; omega)

/-- THE RESULT both programs compute from 4194304 index words `x` and the table `W`: entry (n, r) is the softmax of
    the row of `W` that word `n` names, at column `r`. -/
def result (x : (⟨1, ![4194304]⟩ : Shape).Idx → BitVec 32) (W : (⟨2, ![601, 27]⟩ : Shape).Idx → EReal) :
    (⟨2, ![4194304, 27]⟩ : Shape).Idx → EReal :=
  fun i => rowSoftmax W (classOf (x (ix1 ⟨(i 0).val, idx2_lt0 i⟩))) ⟨(i 1).val, idx2_lt1 i⟩

/-- A finite sum of reals, summed in the extended reals, is the real sum. -/
theorem coe_sum_real {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- Over a table of reals every softmax entry is a real: positive exponentials, a positive sum, a real quotient. -/
theorem rowSoftmax_real (W : (⟨2, ![601, 27]⟩ : Shape).Idx → EReal) (hW : ∀ i, ∃ w : ℝ, W i = (w : EReal))
    (k : Fin 601) (r : Fin 27) : ∃ p : ℝ, rowSoftmax W k r = (p : EReal) := by
  choose w hw using hW
  have hpos : (∑ q : Fin 27, Real.exp (w (ix2 k q))) ≠ 0 :=
    (Finset.sum_pos (fun q _ => Real.exp_pos (w (ix2 k q))) ⟨0, Finset.mem_univ _⟩).ne'
  unfold rowSoftmax
  simp only [hw, Ideal.exp_coe]
  rw [coe_sum_real, Ideal.div_coe hpos, ← EReal.coe_mul]
  exact ⟨_, rfl⟩

/-- A finite extended real minus itself is zero. -/
theorem sub_self_of_real {x : EReal} (h : ∃ p : ℝ, x = (p : EReal)) : x - x = 0 := by
  obtain ⟨p, rfl⟩ := h
  rw [← EReal.coe_sub, sub_self, EReal.coe_zero]

/-- A sum of products against an indicator column — `1` at `k₀`, `0` elsewhere — is the term at `k₀`. -/
theorem sum_mul_indicator {n : ℕ} (f g : Fin n → EReal) (k₀ : Fin n) (h1 : g k₀ = 1) (h0 : ∀ k, k ≠ k₀ → g k = 0) :
    ∑ k, f k * g k = f k₀ := by
  rw [Finset.sum_eq_single k₀ (fun k _ hk => by rw [h0 k hk, mul_zero]) (fun h => absurd (Finset.mem_univ _) h),
    h1, mul_one]

/-- A sum of products whose left factors all vanish is zero. -/
theorem sum_zero_mul {n : ℕ} (f g : Fin n → EReal) (hf : ∀ k, f k = 0) : ∑ k, f k * g k = 0 :=
  Finset.sum_eq_zero fun k _ => by rw [hf k, zero_mul]

end Cert.Bigram

end
-- ==== Proof.LibRowGather.lean ====
/-
  A gather of whole rows of a matrix, read at an entry, for any extents, element type and index width.

  What `x[idx]` of an N × C matrix `x` at a vector of n row numbers lowers to is a gather whose start indices are the
  n × 1 column of row numbers, whose slices are single rows (sizes 1 × C), whose collapsed and start-indexed operand
  axis is the row axis, and whose one offset axis is the result's column axis. Entry (p, q) of the result is the
  matrix at row "start index p, read as a signed integer and clamped into 0 … N - 1" and column q.
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The dimension numbers of a row gather from an N × C operand at n × 1 start indices into an n × C result; their
    conditions `wf` are decided on a program's literal shapes. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

section
variable {N C n w : Nat}
  (wf : GatherDims.WF ⟨2, ![N, C]⟩ ⟨2, ![n, 1]⟩ ⟨2, ![n, C]⟩ [1] [0] [] [0] [] 1 ![1, C])
  (idx : IVec ⟨2, ![n, 1]⟩ w) (p : Fin n) (q : Fin C)

/-- On the row axis the operand index is the clamped start index. -/
theorem row_coord :
    (rowDims N C n wf).start (ix2 p q) idx (0 : Fin 2) + (rowDims N C n wf).batchCoord (ix2 p q) (0 : Fin 2)
        + (rowDims N C n wf).offCoord (ix2 p q) (0 : Fin 2)
      = min (idx (ix2 p (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C n wf).startIndexMap from List.mem_singleton.mpr rfl)]
  have hsi : (rowDims N C n wf).siIdx (ix2 p q) ⟨List.idxOf (0 : Fin 2) (rowDims N C n wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- On the column axis it is the result's column. -/
theorem col_coord :
    (rowDims N C n wf).start (ix2 p q) idx (1 : Fin 2) + (rowDims N C n wf).batchCoord (ix2 p q) (1 : Fin 2)
        + (rowDims N C n wf).offCoord (ix2 p q) (1 : Fin 2)
      = q.val := by
  rw [GatherDims.batchCoord_eq_zero _ _ _ List.not_mem_nil]
  have hs : (rowDims N C n wf).start (ix2 p q) idx (1 : Fin 2) = 0 := by
    unfold GatherDims.start
    rw [dif_neg (show ¬ (1 : Fin 2) ∈ ([0] : List (Fin 2)) from by decide)]
  rw [hs]
  simp only [Nat.add_zero, Nat.zero_add]
  unfold GatherDims.offCoord
  rw [dif_pos ((GatherDims.mem_sKept _ _).mpr
    ⟨(show ¬ (1 : Fin 2) ∈ ([0] : List (Fin 2)) from by decide), List.not_mem_nil⟩)]
  rfl

end

/-- THE ROW GATHER READ AT (p, q): the operand at the clamped row and at column q. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  unfold Host.gather
  congr 1
  funext a
  refine Fin.ext ?_
  match a with
  | ⟨0, _⟩ => exact row_coord wf idx p q
  | ⟨1, _⟩ => exact col_coord wf idx p q

end Idealize.ShloMosaic.RowGather

end
-- ==== Proof.RefValue.lean ====
/-
  The reference's result, read at an entry.

  The reference first normalises each index word (a negative word would have 601 added), gathers the rows of `W`
  those words name (the row number clamped into 0 … 600), exponentiates, sums each gathered row, and divides. For an
  index word below 601 the normalisation leaves it alone — it is not negative — and the clamp does too, so the row
  gathered for word `n` is row `x n` of `W`, and entry (n, r) of the result is e^{W (x n) r} over the sum of the 27
  exponentials of that row: the row softmax at the class the word names.
-/
import proofs.«425511_j86114094285207_3_alg».proof.Proof.Gen.ReferenceIdeal.Read
import proofs.«425511_j86114094285207_3_alg».proof.Proof.Softmax
import proofs.«425511_j86114094285207_3_alg».proof.Proof.LibRowGather
import Idealize.ShloMosaic.Lib.StableHlo.Predicate

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Bigram Idealize.ShloMosaic.RowGather

/-- An index word below 601 comes through the normalisation unchanged: it is not negative. -/
theorem normalised_apply (x : IVec S4194304 32) (n : Fin 4194304) (hx : (x (ix1 n)).toNat < 601) :
    val_main_v5 (F := Ideal) x (ix2 n (0 : Fin 1)) = x (ix1 n) := by
  have hi : idx_main_v5 (ix2 n (0 : Fin 1)) = ix1 n := funext fun a => Fin.ext (by match a with | ⟨0, _⟩ => rfl)
  have hnot : ¬ IntOp.cmpi .slt (x (ix1 n)) 0#32 = 1#1 := fun h => by
    have h1 := IntOp.cmpi_slt.mp h
    rw [StableHlo.Predicate.toInt_eq_toNat_of_lt (by omega), show (0#32 : BitVec 32).toInt = 0 from by decide] at h1
    omega
  rw [val_main_v5_apply, hi, val_main_v4_apply, val_main_v1_apply, val_main_v0_apply, val_main_c_apply,
    eq_zero_of_ne_one hnot, select_zero]

/-- The row gathered for an in-range word `n` is row `x n` of `W`. -/
theorem gathered_apply (x : IVec S4194304 32) (W : FVec Ideal S601x27 .f32) (n : Fin 4194304) (q : Fin 27)
    (hx : (x (ix1 n)).toNat < 601) :
    val_main_v6 (F := Ideal) x W (ix2 n q) = W (ix2 (classOf (x (ix1 n))) q) := by
  unfold val_main_v6
  show Host.gather (rowDims 601 27 4194304 gather_S601x27_S4194304x1_S4194304x27_1_0_n_n_0_1_127_wf) W
    (val_main_v5 (F := Ideal) x) (ix2 n q) = _
  rw [gather_rows_apply (by decide)]
  refine congrArg W (funext fun a => Fin.ext ?_)
  match a with
  | ⟨0, _⟩ =>
    show min (val_main_v5 (F := Ideal) x (ix2 n (0 : Fin 1))).toInt.toNat (601 - 1) = min (x (ix1 n)).toNat 600
    rw [normalised_apply x n hx, StableHlo.Predicate.toInt_eq_toNat_of_lt (by omega)]
    rfl
  | ⟨1, _⟩ => rfl

/-- THE REFERENCE'S RESULT over in-range index words is the row softmax at the class each word names. -/
theorem ref_eq (x : IVec S4194304 32) (W : FVec Ideal S601x27 .f32) (hx : ∀ n, (x n).toNat < 601) :
    val_main_v11 (F := Ideal) x W = result x W := by
  funext i
  obtain ⟨n, r, rfl⟩ : ∃ (n : Fin 4194304) (r : Fin 27), i = ix2 n r := ⟨i 0, i 1, eq_ix2 i⟩
  have hk : ∀ k : Fin 27, idx_main_v8 (idx_main_v9 (idx_main_v10 (ix2 n r))) k = ix2 n k := fun k =>
    funext fun a => Fin.ext (by match a with | ⟨0, _⟩ => rfl | ⟨1, _⟩ => rfl)
  rw [val_main_v11_apply, val_main_v10_apply, val_main_v9_apply, val_main_v8_apply, val_main_cst_apply]
  simp only [hk, val_main_v7_apply, gathered_apply x W n _ (hx (ix1 n)), Ideal.hostUnary_exp_def, Ideal.hostDivf_def,
    Ideal.ofBits_def, Ideal.ofBits_zero_f32, zero_add]
  rfl

end Cert.ReferenceIdeal.RefValue

end
-- ==== Proof.LibPlainMatmul.lean ====
/-
  A plain matrix product read at an index, at the ideal values, for any extents and element formats.

  A matmul whose dimension numbers contract the left operand's second axis against the right operand's first,
  with no batch axes — an m × k matrix times a k × n matrix — accumulated into the zero splat, has at entry
  (a, b) the sum over the contracted coordinate c of A (a, c) · B (c, b). The contraction's index type has one
  axis of extent k; the sum is re-indexed through the bijection between that type and the coordinates 0 … k-1.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

/-- Entry (a, b) of an m × k by k × n product into a zero accumulator is `∑ c, A (a, c) * B (c, b)`. `w` is the
    dimension numbers' well-formedness, which a program states of its own record. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Idealize.ShloMosaic.PlainMatmul

end
-- ==== Proof.Chunk.lean ====
/-
  One chunk of the kernel's body, read at an entry.

  The body handles 4096 indices at a time. For a chunk `x` of 4096 index words it builds the 640 × 4096 matrix whose
  entry (c, j) is `1` when the class number `c` equals the word `x j` and `0` otherwise, multiplies the two
  32 × 640 tables `hi` and `lo` by it, adds the two products, transposes the 32 × 4096 sum and keeps its first 27
  columns. So entry (j, r) of what it stores is

      ∑ c, hi (r, c) · [c = x j]  +  ∑ c, lo (r, c) · [c = x j]

  over the 640 class numbers c: each product contracts a table row against the indicator column of the word `x j`.
-/
import proofs.«425511_j86114094285207_3_alg».proof.Proof.Gen.KernelIdeal.Skeleton
import proofs.«425511_j86114094285207_3_alg».proof.Proof.Softmax
import proofs.«425511_j86114094285207_3_alg».proof.Proof.LibPlainMatmul
import Idealize.ShloMosaic.Lib.Pipeline.Value
import Idealize.ShloMosaic.Lib.StableHlo.Predicate

noncomputable section

open scoped BigOperators

namespace Cert.KernelIdeal.Chunk

open Cert.KernelIdeal Cert.KernelIdeal.Gen Idealize.ShloMosaic Idealize.ShloMosaic.ValueIdx

/-- The indicator of "class number `c` is the word `x`", as the body computes it: the equality bit, widened to a
    word and converted to a float. -/
def hot (c : Fin 640) (x : BitVec 32) : EReal :=
  FloatOps.sitofp (F := Ideal) .f32 ((IntOp.cmpi .eq (BitVec.ofNat 32 c.val) x).setWidth 32)

/-- It is `1` at the class the word names … -/
theorem hot_eq (c : Fin 640) (x : BitVec 32) (h : BitVec.ofNat 32 c.val = x) : hot c x = 1 := by
  unfold hot
  rw [StableHlo.Predicate.cmpi_eq_iff.mpr h]
  show (((((1#1 : BitVec 1).setWidth 32).toInt : ℤ) : ℝ) : EReal) = 1
  rw [show ((1#1 : BitVec 1).setWidth 32).toInt = 1 from by decide]
  simp

/-- … and `0` at every other class. -/
theorem hot_ne (c : Fin 640) (x : BitVec 32) (h : BitVec.ofNat 32 c.val ≠ x) : hot c x = 0 := by
  unfold hot
  rw [eq_zero_of_ne_one (fun h1 => h (StableHlo.Predicate.cmpi_eq_iff.mp h1))]
  show (((((0#1 : BitVec 1).setWidth 32).toInt : ℤ) : ℝ) : EReal) = 0
  rw [show ((0#1 : BitVec 1).setWidth 32).toInt = 0 from by decide]
  simp

/-- The 640 × 4096 indicator matrix of a chunk of index words, as the body builds it. -/
def oneHot (x : IVec S4096 32) : FVec Ideal S640x4096 .bf16 :=
  truncf .bf16 (sitofp .f32 (extui 32 (cmpi .eq
    (broadcastTo S640x4096 (iota .tc S640x1 32 [0] iota_S640x1_d0_w32) broadcasts_S640x1_S640x4096)
    (broadcastTo S640x4096 (shapeCast S1x4096 x shapeCasts_S4096_S1x4096) broadcasts_S1x4096_S640x4096)) natLt_1_32))
    bitsLt_bf16_f32

/-- Its entry (c, j) is the indicator of "c is the j-th word". -/
theorem oneHot_apply (x : IVec S4096 32) (c : Fin 640) (j : Fin 4096) : oneHot x (ix2 c j) = hot c (x (ix1 j)) := by
  have e1 := broadcastTo_apply (iota .tc S640x1 32 [0] iota_S640x1_d0_w32) broadcasts_S640x1_S640x4096 (ix2 c j)
    (ix2 c (0 : Fin 1)) (fun a => by match a with | ⟨0, _⟩ => rfl | ⟨1, _⟩ => rfl)
  have e2 := broadcastTo_apply (shapeCast S1x4096 x shapeCasts_S4096_S1x4096) broadcasts_S1x4096_S640x4096 (ix2 c j)
    (ix2 (0 : Fin 1) j) (fun a => by match a with | ⟨0, _⟩ => rfl | ⟨1, _⟩ => rfl)
  have e3 := shapeCast_apply x shapeCasts_S4096_S1x4096 (ix2 (0 : Fin 1) j) (ix1 j) (by
    rw [Shape.rowMajor_val_one, Shape.rowMajor_val_two]
    show j.val = 0 * 4096 + j.val
    omega)
  have e4 := iota_single_apply .tc S640x1 32 (0 : Fin 2) iota_S640x1_d0_w32 (ix2 c (0 : Fin 1))
  show FloatOps.sitofp (F := Ideal) .f32 ((IntOp.cmpi .eq
      (broadcastTo S640x4096 (iota .tc S640x1 32 [0] iota_S640x1_d0_w32) broadcasts_S640x1_S640x4096 (ix2 c j))
      (broadcastTo S640x4096 (shapeCast S1x4096 x shapeCasts_S4096_S1x4096) broadcasts_S1x4096_S640x4096 (ix2 c j))).setWidth 32) = _
  rw [e1, e2, e3, e4]
  rfl

/-- A chunk's payload is the sliced transpose of the two products' sum. -/
theorem pay_eq (hi lo : FVec Ideal S32x640 .bf16) (x : Vec Ideal S4096 .i32) :
    k0_pay1 (F := Ideal) hi lo x
      = extractStridedSlice S4096x27 ![0, 0] (transpose S4096x32 [1, 0]
          (addf (matmul dot_S32x640_S640x4096_S32x4096_1_0_0_1_n_n none hi (oneHot x) (constant S32x4096 .f32 0x00000000#32))
            (matmul dot_S32x640_S640x4096_S32x4096_1_0_0_1_n_n none lo (oneHot x) (constant S32x4096 .f32 0x00000000#32)))
          transposes_S32x4096_p1_0_S4096x32) slices_S4096x32_o0_0_S4096x27 := rfl

/-- Row `r` of a 27-row range, as a row of the 32-row tables. -/
abbrev row32 (r : Fin 27) : Fin 32 := ⟨r.val, by have := r.isLt; omega⟩

/-- ENTRY (j, r) OF A CHUNK'S PAYLOAD: the two tables' rows `r` contracted against the indicator column of word `j`. -/
theorem pay_apply (hi lo : FVec Ideal S32x640 .bf16) (x : Vec Ideal S4096 .i32) (j : Fin 4096) (r : Fin 27) :
    k0_pay1 (F := Ideal) hi lo x (ix2 j r)
      = (∑ c : Fin 640, hi (ix2 (row32 r) c) * hot c (x (ix1 j))) + ∑ c : Fin 640, lo (ix2 (row32 r) c) * hot c (x (ix1 j)) := by
  rw [pay_eq]
  refine (extractStridedSlice_apply ![0, 0] _ slices_S4096x32_o0_0_S4096x27 (ix2 j r) (ix2 j (row32 r))
    (fun a => by match a with | ⟨0, _⟩ => (show j.val = 0 + j.val; omega) | ⟨1, _⟩ => (show r.val = 0 + r.val; omega))).trans ?_
  refine (transpose_apply [1, 0] _ transposes_S32x4096_p1_0_S4096x32 (ix2 j (row32 r)) (ix2 (row32 r) j)
    (fun b => by match b with | ⟨0, _⟩ => rfl | ⟨1, _⟩ => rfl)).trans ?_
  show FloatOps.matmul (⟨[1], [0], [0], [1], [], [], dot_S32x640_S640x4096_S32x4096_1_0_0_1_n_n_wf⟩ : DotDims S32x640 S640x4096 S32x4096)
        none hi (oneHot x) (constant S32x4096 .f32 0x00000000#32) (ix2 (row32 r) j)
      + FloatOps.matmul (⟨[1], [0], [0], [1], [], [], dot_S32x640_S640x4096_S32x4096_1_0_0_1_n_n_wf⟩ : DotDims S32x640 S640x4096 S32x4096)
        none lo (oneHot x) (constant S32x4096 .f32 0x00000000#32) (ix2 (row32 r) j) = _
  rw [PlainMatmul.matmul_zero_apply, PlainMatmul.matmul_zero_apply]
  simp only [oneHot_apply]

end Cert.KernelIdeal.Chunk

end
-- ==== Proof.Block.lean ====
/-
  What the body leaves in the output's 16384 × 27 staging block, as one function of its three input blocks.

  The body runs its chunk computation four times, on words 0 … 4095, 4096 … 8191, 8192 … 12287 and 12288 … 16383 of
  the index block, and stores the k-th result into rows 4096·k … 4096·k + 4095 of the output block. The four row
  ranges tile the block, and on each of them the stored chunk is the same function of the row number: entry (p, r)
  is the two tables' rows `r` contracted against the indicator column of index word `p` — word `p` of the block is
  word `p - 4096·k` of chunk `k`.
-/
import proofs.«425511_j86114094285207_3_alg».proof.Proof.Gen.KernelIdeal.Value
import proofs.«425511_j86114094285207_3_alg».proof.Proof.Chunk

set_option maxRecDepth 16384

noncomputable section

open scoped BigOperators

namespace Cert.KernelIdeal.Block

open Cert.KernelIdeal Cert.KernelIdeal.Gen Idealize.ShloMosaic Idealize.ShloMosaic.ValueIdx Idealize.ShloMosaic.Tactic
open Cert.KernelIdeal.Chunk

/-- Entry (p, r) of the block: table rows `r` against the indicator column of the block's index word `p`. -/
def blockAt (x0 : Vec Ideal S16384 .i32) (x1 x2 : Vec Ideal S32x640 .bf16) (p : Fin 16384) (r : Fin 27) : EReal :=
  (∑ c : Fin 640, x1 (ix2 (row32 r) c) * hot c (x0 (ix1 p))) + ∑ c : Fin 640, x2 (ix2 (row32 r) c) * hot c (x0 (ix1 p))

/-- The block as a function of its index. -/
def blockFn (x0 : Vec Ideal S16384 .i32) (x1 x2 : Vec Ideal S32x640 .bf16) : Vec Ideal S16384x27 .f32 :=
  fun y => blockAt x0 x1 x2 ⟨(y 0).val, idx2_lt0 y⟩ ⟨(y 1).val, idx2_lt1 y⟩

theorem hz2 : (![0, 0] : Fin 2 → Nat) = fun _ => 0 := funext fun a => by fin_cases a <;> rfl

/-- A chunk stored at row offset `o` is the block function on rows `o … o + 4095`. -/
theorem piece_eq (x0 : Vec Ideal S16384 .i32) (x1 x2 : Vec Ideal S32x640 .bf16) (o : Nat)
    (inb1 : ∀ a, (![o] : Fin 1 → Nat) a + S4096.size a ≤ S16384.size a)
    (inb2 : ∀ a, (![o, 0] : Fin 2 → Nat) a + S4096x27.size a ≤ S16384x27.size a) (x : S4096x27.Idx) :
    k0_pay1 (F := Ideal) x1 x2 (View.ld x0 (Rect.unit (s := S16384) ![o] S4096.size inb1)) x
      = blockFn x0 x1 x2 ((Rect.unit (s := S16384x27) ![o, 0] S4096x27.size inb2).emb x) := by
  obtain ⟨j, r, rfl⟩ : ∃ (j : Fin 4096) (r : Fin 27), x = ix2 j r := ⟨x 0, x 1, eq_ix2 x⟩
  have ho : o + 4096 ≤ 16384 := inb1 0
  have hlt : o + j.val < 16384 := by have := j.isLt; omega
  -- the block's row under entry (j, r) of the piece is row o + j, its column is r
  have hp : (⟨((Rect.unit (s := S16384x27) ![o, 0] S4096x27.size inb2).emb (ix2 j r) 0).val, idx2_lt0 _⟩ : Fin 16384)
      = ⟨o + j.val, hlt⟩ := Fin.ext (by show o + 1 * j.val = o + j.val; omega)
  have hr : (⟨((Rect.unit (s := S16384x27) ![o, 0] S4096x27.size inb2).emb (ix2 j r) 1).val, idx2_lt1 _⟩ : Fin 27)
      = r := Fin.ext (by show 0 + 1 * r.val = r.val; omega)
  -- and word j of the chunk loaded at offset o is word o + j of the block
  have hl : View.ld x0 (Rect.unit (s := S16384) ![o] S4096.size inb1) (ix1 j) = x0 (ix1 ⟨o + j.val, hlt⟩) :=
    congrArg x0 (funext fun a => Fin.ext (by match a with | ⟨0, _⟩ => (show o + 1 * j.val = o + j.val; omega)))
  rw [pay_apply, hl]
  exact (congrArg₂ (blockAt x0 x1 x2) hp hr).symm

theorem out_eq (c : Dev nD) (i : grid0.Coords) (arg1 : Memref sig .tc .vmem S16384 .i32) (harg1 : arg1.IsWhole)
    (arg2 : Memref sig .tc .vmem S32x640 .bf16) (harg2 : arg2.IsWhole) (arg3 : Memref sig .tc .vmem S32x640 .bf16) (harg3 : arg3.IsWhole)
    (arg4 : Memref sig .tc .vmem S16384x27 .f32) (harg4 : arg4.IsWhole)
    (x0 : Vec Ideal S16384 .i32) (x1 x2 : Vec Ideal S32x640 .bf16) :
    out0_A_3 (F := Ideal) c i arg1 harg1 arg2 harg2 arg3 harg3 arg4 harg4 x0 x1 x2 = blockFn x0 x1 x2 := by
  unfold out0_A_3
  rw [View.read_writes_eq_canon _ _ _ (cover0_A_3 c i arg1 harg1 arg2 harg2 arg3 harg3 arg4 harg4 x0 x1 x2)]
  funext y
  refine View.canon_apply_of_pieces (blockFn x0 x1 x2) _ ?_ y (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread, View.ld_unit_zero (S := S32x640) hz2]
  have e5 : ∀ xc, k0_pay5 (F := Ideal) x1 x2 xc = k0_pay1 (k0_pay3 x1) (k0_pay4 x2) xc := fun _ => rfl
  have e6 : ∀ xc, k0_pay6 (F := Ideal) x1 x2 xc = k0_pay1 (k0_pay3 x1) (k0_pay4 x2) xc := fun _ => rfl
  have e2 : ∀ a b xc, k0_pay2 (F := Ideal) a b xc = k0_pay1 a b xc := fun _ _ _ => rfl
  have h3 : k0_pay3 (F := Ideal) x1 = x1 := shapeCast_self _ _
  have h4 : k0_pay4 (F := Ideal) x2 = x2 := shapeCast_self _ _
  simp only [e5, e6, e2, h3, h4]
  intro p hp
  simp only [List.mem_cons, List.not_mem_nil, or_false] at hp
  rcases hp with rfl | rfl | rfl | rfl
  · exact fun x => piece_eq x0 x1 x2 12288 (by decide) (by decide) x
  · exact fun x => piece_eq x0 x1 x2 8192 (by decide) (by decide) x
  · exact fun x => piece_eq x0 x1 x2 4096 (by decide) (by decide) x
  · exact fun x => piece_eq x0 x1 x2 0 (by decide) (by decide) x

end Cert.KernelIdeal.Block

end
-- ==== Proof.Tables.lean ====
/-
  The two tables the kernel is launched on, as functions of the argument `W`, read at an entry.

  Before the launch the host computes, from the 601 × 27 argument `W`: the row softmax of `W` (exponentials
  divided by their row sums), its transpose (27 × 601), that transpose padded with zeros to 32 × 640, and then a
  split of the padded table `T` into a first part `hi` — `T` after a change of format, which on the extended reals
  is `T` itself — and a remainder `lo = T - hi`, again up to changes of format. So, entry by entry:

    * `hi (r, k)` is the softmax of row `k` of `W` at column `r` when r < 27 and k < 601, and `0` in the padding;
    * `lo (r, k)` is `T (r, k) - T (r, k)`, which is `0` as soon as `T (r, k)` is finite.
-/
import proofs.«425511_j86114094285207_3_alg».proof.Proof.Gen.KernelIdeal.Value
import proofs.«425511_j86114094285207_3_alg».proof.Proof.Softmax
import Idealize.ShloMosaic.Lib.StableHlo.Run
import Idealize.ShloMosaic.Lib.KernelVsHost

noncomputable section

open scoped BigOperators

namespace Cert.KernelIdeal.Tables

open Cert.KernelIdeal Cert.KernelIdeal.Gen Idealize.ShloMosaic Idealize.ShloMosaic.TcCoe Idealize.SL.Sem
open Idealize.ShloMosaic.StableHlo Idealize.ShloMosaic.ValueIdx Cert.Bigram

variable {F : FTy → Type} [FloatOps F]

/-- The row softmax of `W`, as the host computes it. -/
def probs (W : FVec F S601x27 .f32) : FVec F S601x27 .f32 :=
  Host.divf (Host.exp W) (broadcastInDim S601x27 ![0, 1] bcast_S601x1_S601x27_0_1
    (broadcastInDim S601x1 ![0] bcast_S601_S601x1_0
      (Host.reduceAdd (Host.exp W) (constant S_ .f32 0x00000000#32) reducesTo_S601x27_S601_d1 h_S_)))

/-- Its transpose, padded with zeros to 32 × 640. -/
def padded (W : FVec F S601x27 .f32) : FVec F S32x640 .f32 :=
  pad S32x640 ![0, 0] ![5, 39] ![0, 0] (transpose S27x601 [1, 0] (probs W) transposes_S601x27_S27x601_1_0)
    (sitofp .f32 (constantI S_ 32 0#32)) pads_S27x601_S32x640_050_0390 h_S_

/-- The first part of the split. -/
def hiT (W : FVec F S601x27 .f32) : FVec F S32x640 .bf16 := truncf .bf16 (padded W) bitsLt_bf16_f32

/-- The remainder of the split. -/
def loT (W : FVec F S601x27 .f32) : FVec F S32x640 .bf16 :=
  truncf .bf16 (subf (padded W) (extf .f32 (hiT W) bitsLt_bf16_f32)) bitsLt_bf16_f32

variable (m : (ℓ : Loc nD τ sig) → Buf (Elt F) ℓ)

/-- The region finds the first table in the buffer window 1 stages. -/
theorem V_hi (c : Dev nD) : (V m c main_v7 : S32x640.Idx → Elt F .bf16) = hiT (m ((c : Thread nD τ).loc main_arg1)) := by
  dsimp only [V]
  simp only [hostOps0, hostOps0_1, hostOps0_2, List.flatten_cons, List.flatten_nil, List.append_nil, List.cons_append,
    List.nil_append]
  after_results
  rfl

/-- … and the remainder in the buffer window 2 stages. -/
theorem V_lo (c : Dev nD) : (V m c main_v10 : S32x640.Idx → Elt F .bf16) = loT (m ((c : Thread nD τ).loc main_arg1)) := by
  dsimp only [V]
  simp only [hostOps0, hostOps0_1, hostOps0_2, List.flatten_cons, List.flatten_nil, List.append_nil, List.cons_append,
    List.nil_append]
  after_results
  rfl

/-! ## The tables at an entry, on the extended reals -/

/-- The host's row sum of the exponentials, at row `k`: the initial zero plus the 27 exponentials of the row. -/
theorem rowSum_apply (W : FVec Ideal S601x27 .f32) (k : Fin 601) :
    Host.reduceAdd (Host.exp W) (constant S_ .f32 0x00000000#32) reducesTo_S601x27_S601_d1 h_S_ (ix1 k)
      = ∑ q : Fin 27, Ideal.exp (W (ix2 k q)) := by
  simp only [Host.reduceAdd, Ideal.hostReduceAdd_def]
  rw [Ideal.hostReduceAdd_single reducesTo_S601x27_S601_d1 (by decide)]
  show Ideal.ofBits .f32 0x00000000#32 + _ = _
  rw [Ideal.ofBits_zero_f32, zero_add]
  refine Finset.sum_congr rfl fun q _ => ?_
  show Ideal.exp (W _) = _
  exact congrArg (fun i => Ideal.exp (W i)) (funext fun a => Fin.ext (by match a with | ⟨0, _⟩ => rfl | ⟨1, _⟩ => rfl))

/-- The host's softmax table at (k, r) is the row softmax of `W`. -/
theorem probs_apply (W : FVec Ideal S601x27 .f32) (k : Fin 601) (r : Fin 27) : probs W (ix2 k r) = rowSoftmax W k r := by
  have e1 := broadcastInDim_apply ![0, 1] bcast_S601x1_S601x27_0_1
    (broadcastInDim S601x1 ![0] bcast_S601_S601x1_0
      (Host.reduceAdd (Host.exp W) (constant S_ .f32 0x00000000#32) reducesTo_S601x27_S601_d1 h_S_))
    (ix2 k r) (ix2 k (0 : Fin 1)) (fun a => by
      match a with
      | ⟨0, _⟩ => (show k.val = if (601 : Nat) = 1 then 0 else k.val; rw [if_neg (by decide)])
      | ⟨1, _⟩ => (show 0 = if (1 : Nat) = 1 then 0 else r.val; rw [if_pos rfl]))
  have e2 := broadcastInDim_apply ![0] bcast_S601_S601x1_0
    (Host.reduceAdd (Host.exp W) (constant S_ .f32 0x00000000#32) reducesTo_S601x27_S601_d1 h_S_)
    (ix2 k (0 : Fin 1)) (ix1 k) (fun a => by
      match a with
      | ⟨0, _⟩ => (show k.val = if (601 : Nat) = 1 then 0 else k.val; rw [if_neg (by decide)]))
  unfold probs rowSoftmax
  show Ideal.div (Ideal.exp (W (ix2 k r))) _ = Ideal.div _ _
  rw [e1, e2, rowSum_apply]

/-- Inside the 27 × 601 corner the padded table is the transposed softmax. -/
theorem padded_in (W : FVec Ideal S601x27 .f32) (a : Fin 32) (b : Fin 640) (ha : a.val < 27) (hb : b.val < 601) :
    padded W (ix2 a b) = rowSoftmax W ⟨b.val, hb⟩ ⟨a.val, ha⟩ := by
  unfold padded
  refine (pad_apply_of_inside ![0, 0] ![5, 39] ![0, 0] _ _ pads_S27x601_S32x640_050_0390 h_S_ (ix2 a b)
    (ix2 (⟨a.val, ha⟩ : Fin 27) (⟨b.val, hb⟩ : Fin 601)) (fun ax => by
      match ax with
      | ⟨0, _⟩ => (show a.val = 0 + a.val * (0 + 1); omega)
      | ⟨1, _⟩ => (show b.val = 0 + b.val * (0 + 1); omega))).trans ?_
  refine (transpose_apply [1, 0] _ transposes_S601x27_S27x601_1_0 (ix2 (⟨a.val, ha⟩ : Fin 27) (⟨b.val, hb⟩ : Fin 601))
    (ix2 (⟨b.val, hb⟩ : Fin 601) (⟨a.val, ha⟩ : Fin 27)) (fun bx => by match bx with | ⟨0, _⟩ => rfl | ⟨1, _⟩ => rfl)).trans ?_
  exact probs_apply W _ _

/-- The padding value is zero. -/
theorem pad_value : (sitofp .f32 (constantI S_ 32 0#32) : FVec Ideal S_ .f32) (Shape.Idx.first h_S_) = 0 := by
  show ((((0#32 : BitVec 32).toInt : ℤ) : ℝ) : EReal) = 0
  rw [show (0#32 : BitVec 32).toInt = 0 from by decide]
  simp

/-- Outside that corner the padded table is zero. -/
theorem padded_out (W : FVec Ideal S601x27 .f32) (a : Fin 32) (b : Fin 640) (h : ¬(a.val < 27 ∧ b.val < 601)) :
    padded W (ix2 a b) = 0 := by
  unfold padded
  by_cases ha : a.val < 27
  · have hb : ¬ b.val < 601 := fun hb => h ⟨ha, hb⟩
    refine (pad_apply_of_not_inside (s := S27x601) ![0, 0] ![5, 39] ![0, 0] _ _ pads_S27x601_S32x640_050_0390 h_S_ (ix2 a b) (1 : Fin 2)
      (fun hin => hb ?_)).trans pad_value
    have h3 : (b.val - 0) / (0 + 1) < 601 := hin.2.2
    omega
  · refine (pad_apply_of_not_inside (s := S27x601) ![0, 0] ![5, 39] ![0, 0] _ _ pads_S27x601_S32x640_050_0390 h_S_ (ix2 a b) (0 : Fin 2)
      (fun hin => ha ?_)).trans pad_value
    have h3 : (a.val - 0) / (0 + 1) < 27 := hin.2.2
    omega

/-- The first part of the split is the padded table (a change of format is the identity). -/
theorem hiT_apply (W : FVec Ideal S601x27 .f32) (i : S32x640.Idx) : hiT W i = padded W i := rfl

/-- The remainder is the padded table minus itself. -/
theorem loT_apply (W : FVec Ideal S601x27 .f32) (i : S32x640.Idx) : loT W i = padded W i - padded W i := rfl

/-- Over a table of reals the padded table is real: a softmax entry, or zero. -/
theorem padded_real (W : FVec Ideal S601x27 .f32) (hW : ∀ i, ∃ w : ℝ, W i = (w : EReal)) (i : S32x640.Idx) :
    ∃ p : ℝ, padded W i = (p : EReal) := by
  obtain ⟨a, b, rfl⟩ : ∃ (a : Fin 32) (b : Fin 640), i = ix2 a b := ⟨i 0, i 1, eq_ix2 i⟩
  by_cases h : a.val < 27 ∧ b.val < 601
  · rw [padded_in W a b h.1 h.2]; exact rowSoftmax_real W hW _ _
  · exact ⟨0, by rw [padded_out W a b h, EReal.coe_zero]⟩

/-- So over a table of reals the remainder vanishes. -/
theorem loT_zero (W : FVec Ideal S601x27 .f32) (hW : ∀ i, ∃ w : ℝ, W i = (w : EReal)) (i : S32x640.Idx) : loT W i = 0 := by
  rw [loT_apply]; exact sub_self_of_real (padded_real W hW i)

end Cert.KernelIdeal.Tables

end
-- ==== Proof.Select.lean ====
/-
  Selecting a table row by an indicator column.

  For an index word `x` that names a class below 601, the 640 indicator values "class number c is x" are `1` at
  c = x and `0` elsewhere. Contracting row `r` of the first table against that column therefore picks the table's
  entry (r, x), which is the softmax of row `x` of `W` at column `r`; contracting the remainder table, which is zero
  over a real `W`, gives zero. Their sum is that softmax entry.
-/
import proofs.«425511_j86114094285207_3_alg».proof.Proof.Chunk
import proofs.«425511_j86114094285207_3_alg».proof.Proof.Tables

noncomputable section

open scoped BigOperators

namespace Cert.KernelIdeal.Select

open Cert.KernelIdeal Cert.KernelIdeal.Gen Idealize.ShloMosaic Idealize.ShloMosaic.ValueIdx
open Cert.KernelIdeal.Chunk Cert.KernelIdeal.Tables Cert.Bigram

/-- A word below 640 is the word of exactly one class number: its own value. -/
theorem ofNat_eq_iff (c : Fin 640) (x : BitVec 32) : BitVec.ofNat 32 c.val = x ↔ c.val = x.toNat := by
  have hc := c.isLt
  constructor
  · intro h; rw [← h, BitVec.toNat_ofNat]; omega
  · intro h; apply BitVec.eq_of_toNat_eq; rw [BitVec.toNat_ofNat, h]; have := x.isLt; omega

/-- THE SELECTION: the two tables' rows `r` against the indicator column of an in-range word `x` give the softmax
    of row `x` of `W` at column `r`. -/
theorem select_eq (W : FVec Ideal S601x27 .f32) (hW : ∀ i, ∃ w : ℝ, W i = (w : EReal)) (x : BitVec 32)
    (hx : x.toNat < 601) (r : Fin 27) :
    (∑ c : Fin 640, hiT W (ix2 (row32 r) c) * hot c x) + ∑ c : Fin 640, loT W (ix2 (row32 r) c) * hot c x
      = rowSoftmax W ⟨x.toNat, hx⟩ r := by
  have h640 : x.toNat < 640 := by omega
  rw [sum_mul_indicator (fun c : Fin 640 => hiT W (ix2 (row32 r) c)) (fun c => hot c x) ⟨x.toNat, h640⟩
      (hot_eq _ _ ((ofNat_eq_iff _ _).mpr rfl))
      (fun c hc => hot_ne c x (fun e => hc (Fin.ext ((ofNat_eq_iff c x).mp e)))),
    sum_zero_mul (fun c : Fin 640 => loT W (ix2 (row32 r) c)) (fun c => hot c x) (fun c => loT_zero W hW _),
    add_zero, hiT_apply, padded_in W (row32 r) ⟨x.toNat, h640⟩ r.isLt hx]

end Cert.KernelIdeal.Select

end
-- ==== Proof.KernelValue.lean ====
/-
  The kernel's result array after the run: one function of the two arguments.

  The grid has 256 points. Point `t` reads index words 16384·t … 16384·t + 16383 and the two (whole) tables, and
  writes rows 16384·t … 16384·t + 16383 of the 4194304 × 27 result. What it writes at row p of its block and column r
  is the two tables' rows `r` contracted against the indicator column of index word 16384·t + p; with the tables the
  host prepared from `W`, an in-range index word and a real `W`, that is the softmax of the row of `W` the word
  names, at column `r`. The 256 blocks tile the result — row `n` lies in the block of point `n / 16384` — so the
  whole array ends holding the row softmax at the class each index word names.
-/
import proofs.«425511_j86114094285207_3_alg».proof.Proof.Block
import proofs.«425511_j86114094285207_3_alg».proof.Proof.Select

set_option maxRecDepth 16384

noncomputable section

open scoped BigOperators

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.Bigram
open Cert.KernelIdeal.Chunk Cert.KernelIdeal.Tables Cert.KernelIdeal.Block Cert.KernelIdeal.Select
open Idealize.ShloMosaic.Pipeline (Dat)

variable (m : (ℓ : Loc nD τ sig) → Buf (Elt Ideal) ℓ) (ρ : Dev nD → PrngReg)

/-- The index words and the table as the program is launched on them. -/
abbrev xarr (c : Dev nD) : IVec S4194304 32 := m ((c : Thread nD τ).loc main_arg0)
abbrev warr (c : Dev nD) : FVec Ideal S601x27 .f32 := m ((c : Thread nD τ).loc main_arg1)

/-- The result at row `n` and column `r`, by coordinates. -/
def resultAt (x : IVec S4194304 32) (W : FVec Ideal S601x27 .f32) (n : Fin 4194304) (r : Fin 27) : EReal :=
  rowSoftmax W (classOf (x (ix1 n))) r

/-- The printed index maps, decided once over the grid: the index block and the result block move with the point,
    the two tables stay put. -/
theorem idx_facts : ∀ t : Fin cfg0.N, win0_0.index t (0 : Fin 1) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 256 := lt_of_lt_of_eq t.isLt N_0

/-- WHAT POINT `t` WRITES BACK is block `t` of the result function of the two arguments. -/
theorem flushed_eq (c : Dev nD) (hW : ∀ i, ∃ w : ℝ, warr m c i = (w : EReal)) (hx : ∀ n, (xarr m c n).toNat < 601)
    (t : Fin cfg0.N) :
    (dats m 0 c).flushed 3 t = ((cfg0.win 3).blk t).view.read (Elt Ideal) (result (xarr m c) (warr m c)) := by
  rw [flushed3_A, out_eq]
  obtain ⟨e0, e10, e11, e20, e21, e30, e31⟩ := idx_facts t
  have ht := point_lt t
  funext j
  obtain ⟨p, r, rfl⟩ : ∃ (p : Fin 16384) (r : Fin 27), j = ix2 p r := ⟨j 0, j 1, eq_ix2 j⟩
  have hn : t.val * 16384 + p.val < 4194304 := by have := p.isLt; omega
  -- the two tables, read through their (whole) windows
  have h1 : ∀ y : S32x640.Idx, iblk m c 1 t y = hiT (warr m c) y := fun y => by
    show V m c main_v7 (((cfg0.win 1).blk t).view.emb y) = _
    rw [V_hi]
    exact congrArg (hiT (warr m c)) (funext fun a => Fin.ext (by
      match a with
      | ⟨0, _⟩ => (show win0_1.index t (0 : Fin 2) * 32 + 1 * (y 0).val = (y 0).val; omega)
      | ⟨1, _⟩ => (show win0_1.index t (1 : Fin 2) * 640 + 1 * (y 1).val = (y 1).val; omega)))
  have h2 : ∀ y : S32x640.Idx, iblk m c 2 t y = loT (warr m c) y := fun y => by
    show V m c main_v10 (((cfg0.win 2).blk t).view.emb y) = _
    rw [V_lo]
    exact congrArg (loT (warr m c)) (funext fun a => Fin.ext (by
      match a with
      | ⟨0, _⟩ => (show win0_2.index t (0 : Fin 2) * 32 + 1 * (y 0).val = (y 0).val; omega)
      | ⟨1, _⟩ => (show win0_2.index t (1 : Fin 2) * 640 + 1 * (y 1).val = (y 1).val; omega)))
  -- word p of the point's index block is word 16384·t + p of the argument
  have h0 : iblk m c 0 t (ix1 p) = xarr m c (ix1 ⟨t.val * 16384 + p.val, hn⟩) := by
    show V m c main_arg0 (((cfg0.win 0).blk t).view.emb (ix1 p)) = _
    rw [V_main_arg0]
    exact congrArg (xarr m c) (funext fun a => Fin.ext (by
      match a with
      | ⟨0, _⟩ => (show win0_0.index t (0 : Fin 1) * 16384 + 1 * p.val = t.val * 16384 + p.val; omega)))
  -- the array index under entry (p, r) of the block is (16384·t + p, r)
  have ha : (⟨(((cfg0.win 3).blk t).view.emb (ix2 p r) 0).val, idx2_lt0 _⟩ : Fin 4194304) = ⟨t.val * 16384 + p.val, hn⟩ :=
    Fin.ext (by show win0_3.index t (0 : Fin 2) * 16384 + 1 * p.val = t.val * 16384 + p.val; omega)
  have hb : (⟨(((cfg0.win 3).blk t).view.emb (ix2 p r) 1).val, idx2_lt1 _⟩ : Fin 27) = r :=
    Fin.ext (by show win0_3.index t (1 : Fin 2) * 27 + 1 * r.val = r.val; omega)
  show blockAt (iblk m c 0 t) (iblk m c 1 t) (iblk m c 2 t) p r
    = resultAt (xarr m c) (warr m c) ⟨(((cfg0.win 3).blk t).view.emb (ix2 p r) 0).val, idx2_lt0 _⟩
        ⟨(((cfg0.win 3).blk t).view.emb (ix2 p r) 1).val, idx2_lt1 _⟩
  rw [ha, hb]
  unfold blockAt resultAt
  rw [h0]
  simp only [h1, h2]
  rw [select_eq (warr m c) hW _ (hx _) r, classOf_of_lt (hx _)]

/-- An index of the result is in point `t`'s block iff each coordinate is in the block's range on its axis. -/
theorem mem_blk (t : Fin cfg0.N) (i : S4194304x27.Idx) :
    i ∈ ((cfg0.win 3).blk t).view.set ↔ ∀ a : Fin 2, win0_3.index t a * S16384x27.size a ≤ (i a).val
      ∧ (i a).val < win0_3.index t a * S16384x27.size a + S16384x27.size a := by
  show i ∈ ((View.whole main_v11).slice (win0_3.rect t)).set ↔ _
  rw [View.set_slice_whole, Rect.mem_set_unit]
  exact Iff.rfl

/-- Every index of the result is in some point's block: row `n` in the block of point `n / 16384`. -/
theorem cover (i : S4194304x27.Idx) :
    ∃ t : Fin cfg0.N, (cfg0.win 3).flush t = true ∧ i ∈ ((cfg0.win 3).blk t).view.set := by
  have hi0 : (i 0).val < 4194304 := (i 0).isLt
  have hi1 : (i 1).val < 27 := (i 1).isLt
  have hN : cfg0.N = 256 := N_0
  have hq : (i 0).val / 16384 < cfg0.N := by rw [hN]; omega
  obtain ⟨-, -, -, -, -, e30, e31⟩ := idx_facts ⟨(i 0).val / 16384, hq⟩
  have e30' : win0_3.index ⟨(i 0).val / 16384, hq⟩ (0 : Fin 2) = (i 0).val / 16384 := e30
  refine ⟨⟨(i 0).val / 16384, hq⟩, flush0_3 _, ?_⟩
  rw [mem_blk]
  intro a
  match a with
  | ⟨0, _⟩ =>
    show win0_3.index ⟨(i 0).val / 16384, hq⟩ (0 : Fin 2) * 16384 ≤ (i 0).val
      ∧ (i 0).val < win0_3.index ⟨(i 0).val / 16384, hq⟩ (0 : Fin 2) * 16384 + 16384
    rw [e30']; omega
  | ⟨1, _⟩ =>
    show win0_3.index ⟨(i 0).val / 16384, hq⟩ (1 : Fin 2) * 27 ≤ (i 1).val
      ∧ (i 1).val < win0_3.index ⟨(i 0).val / 16384, hq⟩ (1 : Fin 2) * 27 + 27
    rw [e31]; omega

/-- THE RESULT ARRAY after the run: the row softmax at the class each index word names. -/
theorem final (c : Dev nD) (hW : ∀ i, ∃ w : ℝ, warr m c i = (w : EReal)) (hx : ∀ n, (xarr m c n).toNat < 601) :
    (dats m 0 c).arrAt 3 cfg0.N = result (xarr m c) (warr m c) :=
  (dats m 0 c).arrAt_eq_of_cover 3 (result (xarr m c) (warr m c)) (fun t _ => flushed_eq m c hW hx t) cover

/-- The run re-posted: the result array at that function of the arguments, the arguments unchanged. -/
theorem run (hW : ∀ c i, ∃ w : ℝ, warr m c i = (w : EReal)) (hx : ∀ c n, (xarr m c n).toNat < 601) :
    θ_run defs (onTc (τ := τ) (main (F := Ideal))) ⟨m, fun _ => 0, ρ⟩ fun r => ∀ c : Dev nD,
      r.2.mem ((c : Thread nD τ).loc main_v11) = result (xarr m c) (warr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hW c) (hx c)), (h c).2⟩) (run_blocks m ρ)

end Cert.KernelIdeal.KernelValue

end
-- ==== Proof.lean ====
/-
  The kernel and its reference compute one function of their two arguments.

  The arguments are 4194304 index words `x`, each naming one of 601 classes, and a 601 × 27 table `W`. The reference
  gathers, for each index word, the row of `W` it names, and takes that row's softmax: entry (n, r) of its result is
  e^{W (x n) r} divided by the sum over the 27 columns q of e^{W (x n) q}. The kernel takes the softmax of every row of
  `W` first, once, and then selects rows: it multiplies the transposed, zero-padded softmax table by the matrix whose
  column n is the indicator of class `x n`, so that entry (n, r) of its result is the table's entry (r, x n). A row's
  softmax depends on that row alone, so selecting the row and taking the softmax commute, and the two results agree
  entry by entry. The kernel feeds the table to the multiplication as a first part plus a remainder, `T = T + (T - T)`;
  on the extended reals the remainder vanishes exactly when `T` is finite, which it is when `W` is.

  The statement holds where the index words are classes: the precondition says every entry of `W` is finite and
  every index word is at least 0 and below 601. Outside that range the two programs differ (the gather clamps the
  row number, the indicator column of a word that names no class is zero).

  The three frame claims are the generated frames (the reference's is its generated run with the result dropped); no
  operation of the kernel was rewritten by the idealization, so that claim is trivial; the value claim puts the
  kernel's run (its result array read block by block, each block tile by tile) beside the reference's run (read
  operation by operation, the gather at an entry), both at the row softmax of the class each index word names.
-/
import proofs.«425511_j86114094285207_3_alg».proof.Defs
import proofs.«425511_j86114094285207_3_alg».proof.Proof.Gen.Kernel
import proofs.«425511_j86114094285207_3_alg».proof.Proof.Gen.Kernel.Skeleton
import proofs.«425511_j86114094285207_3_alg».proof.Proof.Gen.Kernel.Launch
import proofs.«425511_j86114094285207_3_alg».proof.Proof.Gen.Kernel.Points
import proofs.«425511_j86114094285207_3_alg».proof.Proof.Gen.Kernel.Frame
import proofs.«425511_j86114094285207_3_alg».proof.Proof.Gen.KernelIdeal
import proofs.«425511_j86114094285207_3_alg».proof.Proof.Gen.KernelIdeal.Skeleton
import proofs.«425511_j86114094285207_3_alg».proof.Proof.Gen.KernelIdeal.Launch
import proofs.«425511_j86114094285207_3_alg».proof.Proof.Gen.KernelIdeal.Points
import proofs.«425511_j86114094285207_3_alg».proof.Proof.Gen.KernelIdeal.Frame
import proofs.«425511_j86114094285207_3_alg».proof.Proof.Gen.ReferenceIdeal
import proofs.«425511_j86114094285207_3_alg».proof.Proof.Gen.Pre_finite_inputs
import proofs.«425511_j86114094285207_3_alg».proof.Proof.Gen.KernelIdeal.Value
import proofs.«425511_j86114094285207_3_alg».proof.Proof.Gen.ReferenceIdeal.Run
import proofs.«425511_j86114094285207_3_alg».proof.Proof.Gen.ReferenceIdeal.Read
import proofs.«425511_j86114094285207_3_alg».proof.Proof.Domain
import proofs.«425511_j86114094285207_3_alg».proof.Proof.RefValue
import proofs.«425511_j86114094285207_3_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values, from memories that agree on the arguments and satisfy the precondition, both programs end
    with the row softmax of `W` at the class each index word names. -/
theorem algebraic : Cert.algebraic_KernelIdeal_ReferenceIdeal := by
  intro m ρ m' ρ' hpre hagree
  have hdom := fun c => Cert.Pre_finite_inputs.Domain.domain _ _ (hpre c)
  refine ⟨fun c => Cert.Bigram.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ (fun c => (hdom c).1) (fun c => (hdom c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  exact Cert.ReferenceIdeal.RefValue.ref_eq _ _ (hdom c).2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
